-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_v28 : IVec S_ 1) (main_v33 : IVec S800000 1) : IVec S_ 1 :=
  let main_c_12 : IVec S_ 1 := constantI S_ 1 1#1
  let main_v34 : IVec S_ 1 := (fun x v => Host.reduce IntOp.andi x v reducesTo_S800000_S_d0 h_S_) main_v33 main_c_12
  let main_v35 : IVec S_ 1 := andi main_v28 main_v34
  main_v35

def fn_part1 {F : FTy → Type} [FloatOps F] (main_arg1 : IVec S800000 32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S800000 32 := broadcastInDim S800000 ![] bcast_S_S800000 main_c_10
  let main_v30 : IVec S800000 1 := cmpi .sge main_arg1 main_v29
  let main_c_11 : IVec S_ 32 := constantI S_ 32 50000#32
  let main_v31 : IVec S800000 32 := broadcastInDim S800000 ![] bcast_S_S800000 main_c_11
  let main_v32 : IVec S800000 1 := cmpi .slt main_arg1 main_v31
  let main_v33 : IVec S800000 1 := andi main_v30 main_v32
  fn_part2 (F := F) main_v28 main_v33

def fn {F : FTy → Type} [FloatOps F] (main_arg0 : FVec F S50000x256 .f32) (main_arg1 : IVec S800000 32) (main_arg2 : IVec S800000 32) (main_arg3 : FVec F S800000 .f32) (main_arg4 : FVec F S256x128 .f32) (main_arg5 : FVec F S128 .f32) (main_arg6 : FVec F S128x128 .f32) (main_arg7 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S800000x1 : Shape := ⟨2, ![800000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S_ : Shape := ⟨0, ![]⟩
abbrev S1 : Shape := ⟨1, ![1]⟩
abbrev S1x1 : Shape := ⟨2, ![1, 1]⟩
abbrev S800000x128 : Shape := ⟨2, ![800000, 128]⟩
abbrev S8000x128 : Shape := ⟨2, ![8000, 128]⟩
abbrev S8000x1 : Shape := ⟨2, ![8000, 1]⟩

abbrev nBuf : Space → Nat
  | .hbm => 71
  | .vmem => 32
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S800000x1, .f32⟩
  | .hbm, ⟨9, _⟩ => ⟨S1x128, .f32⟩
  | .hbm, ⟨10, _⟩ => ⟨S1x128, .f32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x128, .f32⟩
  | .hbm, ⟨31, _⟩ => ⟨S800000x128, .i1⟩
  | .hbm, ⟨32, _⟩ => ⟨S_, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S1, .i32⟩
  | .hbm, ⟨51, _⟩ => ⟨S_, .i32⟩
  | .hbm, ⟨52, _⟩ => ⟨S800000x1, .i32⟩
  | .hbm, ⟨53, _⟩ => ⟨S800000x1, .i1⟩
  | .hbm, ⟨54, _⟩ => ⟨S1x1, .i32⟩
  | .hbm, ⟨55, _⟩ => ⟨S800000x1, .i32⟩
  | .hbm, ⟨56, _⟩ => ⟨S800000x1, .i1⟩
  | .hbm, ⟨57, _⟩ => ⟨S800000x1, .i1⟩
  | .hbm, ⟨58, _⟩ => ⟨S_, .i1⟩
  | .hbm, ⟨59, _⟩ => ⟨S800000, .i1⟩
  | .hbm, ⟨60, _⟩ => ⟨S800000x128, .f32⟩
  | .hbm, ⟨61, _⟩ => ⟨S800000x128, .i1⟩
  | .hbm, ⟨62, _⟩ => ⟨S_, .f32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S8000x128, .f32⟩
  | .local _ .vmem, ⟨22, _⟩ => ⟨S8000x128, .f32⟩
  | .local _ .vmem, ⟨23, _⟩ => ⟨S8000x1, .f32⟩
  | .local _ .vmem, ⟨24, _⟩ => ⟨S8000x1, .f32⟩
  | .local _ .vmem, ⟨25, _⟩ => ⟨S8000x128, .f32⟩
  | .local _ .vmem, ⟨26, _⟩ => ⟨S8000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v11 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S800000_S800000x1_0 : S800000.BroadcastsInDim S800000x1 (![0] : Fin 1 → Fin S800000x1.rank)
  bcast_S128_S1x128_1 : S128.BroadcastsInDim S1x128 (![1] : Fin 1 → Fin S1x128.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .f32 = 32 ∨ (Rect.block (s := S800000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S800000x1.size a
  hwx4_1 : ∀ i : grid4.Coords, EltTy.bits .f32 = 32 ∨ (Rect.block (s := S800000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S800000x128.size a
  hwx4_2 : ∀ i : grid4.Coords, EltTy.bits .f32 = 32 ∨ (Rect.block (s := S800000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v11) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v15) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v2) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v16) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x1, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.Rowwise.lean ====
/-
  Row-wise operations on the extended reals, whole and at an element.

  Two whole-array forms the layers are stated with, each for any witness of its broadcast's side condition:
  rows [800000, 128] scaled by a column [800000, 1] broadcast along them, and an array [50000, 128] plus a row [1, 128]
  broadcast down it, clamped below at zero. At element (r, q) the first is g (r, q) · w (r, 0) and the second
  max (a (r, q) + b (0, q)) 0.
-/
import Idealize.ShloMosaic.Lib.Pipeline.Value
import Idealize.ShloMosaic.Lib.ValueIdx
import Idealize.ShloMosaic.PureOps.Ideal.Laws

noncomputable section

namespace Cert.KernelIdeal.Layers

open Idealize.ShloMosaic Idealize.ShloMosaic.TcCoe Idealize.ShloMosaic.ValueIdx

/-- The origin of a rank-2 rectangle. -/
theorem origin2 : (![0, 0] : Fin 2 → Nat) = fun _ => 0 := funext fun a => by fin_cases a <;> rfl

/-- The rows scaled by the column, whole: the elementwise product with the column broadcast along the rows. -/
abbrev scaleRows (h : (⟨2, ![800000, 1]⟩ : Shape).BroadcastsInDim ⟨2, ![800000, 128]⟩ ![0, 1])
    (g : (⟨2, ![800000, 128]⟩ : Shape).Idx → EReal) (w : (⟨2, ![800000, 1]⟩ : Shape).Idx → EReal) :
    (⟨2, ![800000, 128]⟩ : Shape).Idx → EReal :=
  mulf (F := Ideal) (φ := .f32) g (broadcastInDim ⟨2, ![800000, 128]⟩ ![0, 1] h w)

/-- The scaled rows at an element. -/
theorem scaleRows_apply (h : (⟨2, ![800000, 1]⟩ : Shape).BroadcastsInDim ⟨2, ![800000, 128]⟩ ![0, 1])
    (g : (⟨2, ![800000, 128]⟩ : Shape).Idx → EReal) (w : (⟨2, ![800000, 1]⟩ : Shape).Idx → EReal) (r : Fin 800000) (q : Fin 128) :
    scaleRows h g w (ix2 r q) = g (ix2 r q) * w (ix2 r (0 : Fin 1)) := by
  show g (ix2 r q) * broadcastInDim ⟨2, ![800000, 128]⟩ ![0, 1] h w (ix2 r q) = _
  rw [broadcastInDim_apply _ h w (ix2 r q) (ix2 r (0 : Fin 1)) (fun a => match a with
    | ⟨0, _⟩ => by show r.val = if (800000 : Nat) = 1 then 0 else r.val; rw [if_neg (by decide)]
    | ⟨1, _⟩ => by show 0 = if (1 : Nat) = 1 then 0 else q.val; rw [if_pos rfl])]

/-- Bias and clamp, whole: max (agg + the bias row broadcast down the rows) (the zero splat). -/
abbrev biasClamp (hb : (⟨2, ![1, 128]⟩ : Shape).BroadcastsInDim ⟨2, ![50000, 128]⟩ ![0, 1])
    (hz : (⟨0, ![]⟩ : Shape).BroadcastsInDim ⟨2, ![50000, 128]⟩ ![])
    (agg : (⟨2, ![50000, 128]⟩ : Shape).Idx → EReal) (b : (⟨2, ![1, 128]⟩ : Shape).Idx → EReal) :
    (⟨2, ![50000, 128]⟩ : Shape).Idx → EReal :=
  maximumf (F := Ideal) (φ := .f32) (addf (F := Ideal) (φ := .f32) agg (broadcastInDim ⟨2, ![50000, 128]⟩ ![0, 1] hb b))
    (broadcastInDim ⟨2, ![50000, 128]⟩ ![] hz (constant (F := Ideal) ⟨0, ![]⟩ .f32 0x00000000#32))

/-- The biased and clamped array at an element. -/
theorem biasClamp_apply (hb : (⟨2, ![1, 128]⟩ : Shape).BroadcastsInDim ⟨2, ![50000, 128]⟩ ![0, 1])
    (hz : (⟨0, ![]⟩ : Shape).BroadcastsInDim ⟨2, ![50000, 128]⟩ ![])
    (agg : (⟨2, ![50000, 128]⟩ : Shape).Idx → EReal) (b : (⟨2, ![1, 128]⟩ : Shape).Idx → EReal) (r : Fin 50000) (q : Fin 128) :
    biasClamp hb hz agg b (ix2 r q) = max (agg (ix2 r q) + b (ix2 (0 : Fin 1) q)) (Ideal.ofBits .f32 0x00000000#32) := by
  show max (agg (ix2 r q) + broadcastInDim ⟨2, ![50000, 128]⟩ ![0, 1] hb b (ix2 r q))
    (broadcastInDim ⟨2, ![50000, 128]⟩ ![] hz (constant (F := Ideal) ⟨0, ![]⟩ .f32 0x00000000#32) (ix2 r q)) = _
  rw [broadcastInDim_apply _ hb b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)]),
    broadcastInDim_apply _ hz (constant (F := Ideal) ⟨0, ![]⟩ .f32 0x00000000#32) (ix2 r q) (fun a => a.elim0) (fun a => a.elim0)]
  rfl

end Cert.KernelIdeal.Layers

end
-- ==== Proof.Support1.lean ====
/-
  The first layer's support matrix.

  The first launch multiplies `x` [50000, 256] by `W1` [256, 128] in ten row blocks of 5000 rows: at grid point `t`
  it reads rows 5000·t … 5000·t + 4999 of `x` and the whole of `W1`, and writes back the same rows of the result.
  On the extended reals a change of float format is the identity, so element (r, q) of block `t` is
  ∑ k, x (5000·t + r, k) · W1 (k, q): element (5000·t + r, q) of the whole product. The ten blocks tile the 50000 rows,
  so the array the launch leaves is the whole `dot_general` of the two arrays it found.
-/
import proofs.«411469_j5188320493795_1_alg».proof.Proof.Gen.KernelIdeal.Frame
import proofs.«411469_j5188320493795_1_alg».proof.Proof.LibPlainDot
import proofs.«411469_j5188320493795_1_alg».proof.Proof.Rowwise
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layers

open Cert.KernelIdeal Cert.KernelIdeal.Gen Cert.Lib
open Idealize.ShloMosaic Idealize.ShloMosaic.TcCoe Idealize.ShloMosaic.ValueIdx Idealize.SL.Sem
open Idealize.ShloMosaic.Pipeline (Dat)

-- the buffer contents a launch finds when it is entered
variable (V : (c : Dev nD) → (b : Ref sig .tc) → Buf (Elt Ideal) ((c : Thread nD τ).loc b))

/-- The dimension numbers of the block product are those of a plain product. -/
theorem plain_block0 : PlainDot dot_S5000x256_S256x128_S5000x128_1_0_0_1_n_n := ⟨rfl, rfl, rfl, rfl, rfl, rfl⟩

/-- One block's product at an element: the sum over the 256 contracted coordinates. -/
theorem blockProduct0 (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) :=
  plain_block0.matmul_zero_apply none (φ₁ := .bf16) (φ₂ := .bf16) x0 x1 p q

/-- The whole product of the arrays the launch finds, for any record of a plain [50000, 256] by [256, 128] product. -/
abbrev support1 (d : DotDims ⟨2, ![50000, 256]⟩ ⟨2, ![256, 128]⟩ ⟨2, ![50000, 128]⟩)
    (a : (⟨2, ![50000, 256]⟩ : Shape).Idx → EReal) (w : (⟨2, ![256, 128]⟩ : Shape).Idx → EReal) :
    (⟨2, ![50000, 128]⟩ : Shape).Idx → EReal :=
  Host.dotGeneral (F := Ideal) (φ₁ := .f32) (φ₂ := .f32) d none a w

/-- The printed index maps over the ten grid points: block `t` of `x` and of the result is row block `t`; `W1` is one
    block. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of block `t` is row 5000·t + r of the array. -/
theorem row_in_range0 (t : Fin cfg0.N) (p : Fin 5000) : t.val * 5000 + p.val < 50000 := by
  have ht : t.val < 10 := lt_of_lt_of_eq t.isLt N_0
  have hp := p.isLt
  omega

/-- WHAT POINT `t` WRITES BACK is block `t` of the whole product of the two arrays the launch found. -/
theorem written0 (d : DotDims ⟨2, ![50000, 256]⟩ ⟨2, ![256, 128]⟩ ⟨2, ![50000, 128]⟩) (hd : PlainDot d) (c : Dev nD)
    (t : Fin cfg0.N) :
    (dat0 V c).flushed 2 t
      = ((cfg0.win 2).blk t).view.read (Elt Ideal) (support1 d (V c main_arg0) (V c main_arg4)) := by
  show (cfg0.win 2).cut (grid0.coords t) ((dat0 V c).after 2 t) = _
  rw [after0_2]
  unfold out0_2
  rw [View.canon_unit_zero origin2]
  simp only [View.ld_unit_zero (S := S5000x256) origin2, View.ld_unit_zero (S := S256x128) origin2]
  obtain ⟨e0, e1, e2, e3, e4, e5⟩ := blocks0 t
  funext j
  obtain ⟨p, q, rfl⟩ : ∃ (p : Fin 5000) (q : Fin 128), j = ix2 p q := ⟨j 0, j 1, eq_ix2 j⟩
  have hrow := row_in_range0 t p
  -- the block's element (p, q) sits at (5000·t + p, q) of the array
  have eo : ((cfg0.win 2).blk t).view.emb (ix2 p q) = ix2 (⟨t.val * 5000 + p.val, hrow⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (F := Ideal) (iblk0 V c 0 t) (iblk0 V c 1 t) (ix2 p q)
    = support1 d (V c main_arg0) (V c main_arg4) (((cfg0.win 2).blk t).view.emb (ix2 p q))
  refine (blockProduct0 (iblk0 V c 0 t) (iblk0 V c 1 t) p q).trans ?_
  refine Eq.trans ?_ (congrArg (support1 d (V c main_arg0) (V c main_arg4)) eo).symm
  refine Eq.trans ?_ (hd.dotGeneral_apply none _ (V c main_arg0) (V c main_arg4) ⟨t.val * 5000 + p.val, hrow⟩ q).symm
  refine Finset.sum_congr rfl fun k _ => ?_
  -- the two input blocks read where the output's rectangle says
  have ea : iblk0 V c 0 t (ix2 p k) = V c main_arg0 (ix2 (⟨t.val * 5000 + p.val, hrow⟩ : Fin 50000) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  have eb : iblk0 V c 1 t (ix2 k q) = V c main_arg4 (ix2 k q) := by
    show V c main_arg4 (((cfg0.win 1).blk t).view.emb (ix2 k q)) = _
    refine congrArg (V c main_arg4) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  rw [ea, eb]

/-- An index of the result array is in point `t`'s block iff each coordinate is in the block's range on its axis. -/
theorem rows_of_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v3).slice (win0_2.rect t)).set ↔ _
  rw [View.set_slice_whole, Rect.mem_set_unit]
  exact Iff.rfl

/-- The ten row blocks tile the 50000 rows: row `r` is in block `r / 5000`. -/
theorem covered0 (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := blocks0 t
  refine ⟨t, flush0_2 t, ?_⟩
  rw [rows_of_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY the first launch leaves: the whole product of the two arrays it found. -/
theorem support1_array (d : DotDims ⟨2, ![50000, 256]⟩ ⟨2, ![256, 128]⟩ ⟨2, ![50000, 128]⟩) (hd : PlainDot d) (c : Dev nD) :
    (dat0 V c).arrAt 2 cfg0.N = support1 d (V c main_arg0) (V c main_arg4) :=
  (dat0 V c).arrAt_eq_of_cover 2 (support1 d (V c main_arg0) (V c main_arg4)) (fun t _ => written0 V d hd c t) covered0

end Cert.KernelIdeal.Layers

end
-- ==== Proof.Messages1.lean ====
/-
  The first layer's messages.

  The second launch scales row e of the gathered rows [800000, 128] by the e-th edge weight, held as a column
  [800000, 1], in a hundred row blocks of 8000 rows: at grid point `t` it reads rows 8000·t … 8000·t + 7999 of both
  and writes back the same rows of the product. Element (r, q) of block `t` is g (8000·t + r, q) · w (8000·t + r, 0),
  which is element (8000·t + r, q) of the whole elementwise product of the rows with the column broadcast along them.
  The hundred blocks tile the 800000 rows.
-/
import proofs.«411469_j5188320493795_1_alg».proof.Proof.Gen.KernelIdeal.Frame
import proofs.«411469_j5188320493795_1_alg».proof.Proof.LibPlainDot
import proofs.«411469_j5188320493795_1_alg».proof.Proof.Rowwise
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layers

open Cert.KernelIdeal Cert.KernelIdeal.Gen Cert.Lib
open Idealize.ShloMosaic Idealize.ShloMosaic.TcCoe Idealize.ShloMosaic.ValueIdx Idealize.SL.Sem
open Idealize.ShloMosaic.Pipeline (Dat)

-- the buffer contents a launch finds when it is entered
variable (V : (c : Dev nD) → (b : Ref sig .tc) → Buf (Elt Ideal) ((c : Thread nD τ).loc b))

/-- One block's product at an element: the row's entry times the row's weight. -/
theorem blockScale1 (w : Vec Ideal S8000x1 .f32) (g : Vec Ideal S8000x128 .f32) (p : Fin 8000) (q : Fin 128) :
    k1_pay1 (F := Ideal) w g (ix2 p q) = g (ix2 p q) * w (ix2 p (0 : Fin 1)) := by
  unfold k1_pay1
  simp only [shapeCast_self]
  show g (ix2 p q) * broadcastTo S8000x128 w broadcasts_S8000x1_S8000x128 (ix2 p q) = _
  rw [broadcastTo_apply w broadcasts_S8000x1_S8000x128 (ix2 p q) (ix2 p (0 : Fin 1)) (fun a => match a with
    | ⟨0, _⟩ => by show p.val = if (8000 : Nat) = 1 then 0 else p.val; rw [if_neg (by decide)]
    | ⟨1, _⟩ => by show 0 = if (1 : Nat) = 1 then 0 else q.val; rw [if_pos rfl])]

/-- The printed index maps over the hundred grid points: block `t` of each window is row block `t`. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `r` of block `t` is row 8000·t + r of the array. -/
theorem row_in_range1 (t : Fin cfg1.N) (p : Fin 8000) : t.val * 8000 + p.val < 800000 := by
  have ht : t.val < 100 := lt_of_lt_of_eq t.isLt N_1
  have hp := p.isLt
  omega

/-- WHAT POINT `t` WRITES BACK is block `t` of the whole product of the two arrays the launch found. -/
theorem written1 (h : (⟨2, ![800000, 1]⟩ : Shape).BroadcastsInDim ⟨2, ![800000, 128]⟩ ![0, 1]) (c : Dev nD) (t : Fin cfg1.N) :
    (dat1 V c).flushed 2 t
      = ((cfg1.win 2).blk t).view.read (Elt Ideal) (scaleRows h (V c main_v4) (V c main_v0)) := by
  show (cfg1.win 2).cut (grid1.coords t) ((dat1 V c).after 2 t) = _
  rw [after1_2]
  unfold out1_2
  rw [View.canon_unit_zero origin2]
  simp only [View.ld_unit_zero (S := S8000x128) origin2, View.ld_unit_zero (S := S8000x1) origin2]
  obtain ⟨e0, e1, e2, e3, e4, e5⟩ := blocks1 t
  funext j
  obtain ⟨p, q, rfl⟩ : ∃ (p : Fin 8000) (q : Fin 128), j = ix2 p q := ⟨j 0, j 1, eq_ix2 j⟩
  have hrow := row_in_range1 t p
  have eo : ((cfg1.win 2).blk t).view.emb (ix2 p q) = ix2 (⟨t.val * 8000 + p.val, hrow⟩ : Fin 800000) q := by
    funext a; apply Fin.ext
    match a with
    | ⟨0, _⟩ => show win1_2.index t (0 : Fin 2) * 8000 + 1 * p.val = t.val * 8000 + p.val; omega
    | ⟨1, _⟩ => show win1_2.index t (1 : Fin 2) * 128 + 1 * q.val = q.val; omega
  show k1_pay1 (F := Ideal) (iblk1 V c 1 t) (iblk1 V c 0 t) (ix2 p q)
    = scaleRows h (V c main_v4) (V c main_v0) (((cfg1.win 2).blk t).view.emb (ix2 p q))
  refine (blockScale1 (iblk1 V c 1 t) (iblk1 V c 0 t) p q).trans ?_
  refine Eq.trans ?_ (congrArg (scaleRows h (V c main_v4) (V c main_v0)) eo).symm
  refine Eq.trans ?_ (scaleRows_apply h (V c main_v4) (V c main_v0) ⟨t.val * 8000 + p.val, hrow⟩ q).symm
  have eg : iblk1 V c 0 t (ix2 p q) = V c main_v4 (ix2 (⟨t.val * 8000 + p.val, hrow⟩ : Fin 800000) q) := by
    show V c main_v4 (((cfg1.win 0).blk t).view.emb (ix2 p q)) = _
    refine congrArg (V c main_v4) (funext fun a => Fin.ext ?_)
    match a with
    | ⟨0, _⟩ => show win1_0.index t (0 : Fin 2) * 8000 + 1 * p.val = t.val * 8000 + p.val; omega
    | ⟨1, _⟩ => show win1_0.index t (1 : Fin 2) * 128 + 1 * q.val = q.val; omega
  have ew : iblk1 V c 1 t (ix2 p (0 : Fin 1)) = V c main_v0 (ix2 (⟨t.val * 8000 + p.val, hrow⟩ : Fin 800000) (0 : Fin 1)) := by
    show V c main_v0 (((cfg1.win 1).blk t).view.emb (ix2 p (0 : Fin 1))) = _
    refine congrArg (V c main_v0) (funext fun a => Fin.ext ?_)
    match a with
    | ⟨0, _⟩ => show win1_1.index t (0 : Fin 2) * 8000 + 1 * p.val = t.val * 8000 + p.val; omega
    | ⟨1, _⟩ => show win1_1.index t (1 : Fin 2) * 1 + 1 * 0 = 0; omega
  rw [eg, ew]

/-- An index of the result array is in point `t`'s block iff each coordinate is in the block's range on its axis. -/
theorem rows_of_block1 (t : Fin cfg1.N) (i : S800000x128.Idx) :
    i ∈ ((cfg1.win 2).blk t).view.set ↔ ∀ a : Fin 2, win1_2.index t a * S8000x128.size a ≤ (i a).val
      ∧ (i a).val < win1_2.index t a * S8000x128.size a + S8000x128.size a := by
  show i ∈ ((View.whole main_v5).slice (win1_2.rect t)).set ↔ _
  rw [View.set_slice_whole, Rect.mem_set_unit]
  exact Iff.rfl

/-- The hundred row blocks tile the 800000 rows: row `r` is in block `r / 8000`. -/
theorem covered1 (i : S800000x128.Idx) :
    ∃ t : Fin cfg1.N, (cfg1.win 2).flush t = true ∧ i ∈ ((cfg1.win 2).blk t).view.set := by
  have hi0 : (i 0).val < 800000 := idx2_lt0 i
  have hi1 : (i 1).val < 128 := idx2_lt1 i
  have hN : cfg1.N = 100 := N_1
  obtain ⟨t, ht⟩ : ∃ t : Fin cfg1.N, t.val = (i 0).val / 8000 := ⟨⟨(i 0).val / 8000, by rw [hN]; omega⟩, rfl⟩
  obtain ⟨e0, e1, e2, e3, e4, e5⟩ := blocks1 t
  refine ⟨t, flush1_2 t, ?_⟩
  rw [rows_of_block1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- THE ARRAY the second launch leaves: the gathered rows it found, each scaled by its weight. -/
theorem messages1_array (h : (⟨2, ![800000, 1]⟩ : Shape).BroadcastsInDim ⟨2, ![800000, 128]⟩ ![0, 1]) (c : Dev nD) :
    (dat1 V c).arrAt 2 cfg1.N = scaleRows h (V c main_v4) (V c main_v0) :=
  (dat1 V c).arrAt_eq_of_cover 2 (scaleRows h (V c main_v4) (V c main_v0)) (fun t _ => written1 V h c t) covered1

end Cert.KernelIdeal.Layers

end
-- ==== Proof.Hidden1.lean ====
/-
  The first layer's hidden features.

  The third launch adds the bias, held as a row [1, 128], to every row of the aggregated messages [50000, 128] and
  clamps at zero, in ten row blocks of 5000 rows: at grid point `t` it reads rows 5000·t … 5000·t + 4999 and the bias row
  and writes back the same rows. Element (r, q) of block `t` is max (agg (5000·t + r, q) + b (0, q)) 0, which is element
  (5000·t + r, q) of the whole array max (agg + b broadcast down the rows) 0. The ten blocks tile the 50000 rows.
-/
import proofs.«411469_j5188320493795_1_alg».proof.Proof.Gen.KernelIdeal.Frame
import proofs.«411469_j5188320493795_1_alg».proof.Proof.LibPlainDot
import proofs.«411469_j5188320493795_1_alg».proof.Proof.Rowwise
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layers

open Cert.KernelIdeal Cert.KernelIdeal.Gen Cert.Lib
open Idealize.ShloMosaic Idealize.ShloMosaic.TcCoe Idealize.ShloMosaic.ValueIdx Idealize.SL.Sem
open Idealize.ShloMosaic.Pipeline (Dat)

-- the buffer contents a launch finds when it is entered
variable (V : (c : Dev nD) → (b : Ref sig .tc) → Buf (Elt Ideal) ((c : Thread nD τ).loc b))

/-- One block's result at an element: the entry plus its column's bias, clamped at zero. -/
theorem blockBias2 (b : Vec Ideal S1x128 .f32) (x : Vec Ideal S5000x128 .f32) (p : Fin 5000) (q : Fin 128) :
    k2_pay1 (F := Ideal) b x (ix2 p q) = max (x (ix2 p q) + b (ix2 (0 : Fin 1) q)) (Ideal.ofBits .f32 0x00000000#32) := by
  unfold k2_pay1
  simp only [shapeCast_self]
  show max (x (ix2 p q) + broadcastTo S5000x128 b broadcasts_S1x128_S5000x128 (ix2 p q)) _ = _
  rw [broadcastTo_apply b broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rfl

/-- The printed index maps over the ten grid points: block `t` of the aggregate and of the result is row block `t`; the
    bias row is one block. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of block `t` is row 5000·t + r of the array. -/
theorem row_in_range2 (t : Fin cfg2.N) (p : Fin 5000) : t.val * 5000 + p.val < 50000 := by
  have ht : t.val < 10 := lt_of_lt_of_eq t.isLt N_2
  have hp := p.isLt
  omega

/-- WHAT POINT `t` WRITES BACK is block `t` of the whole biased and clamped array. -/
theorem written2 (hb : (⟨2, ![1, 128]⟩ : Shape).BroadcastsInDim ⟨2, ![50000, 128]⟩ ![0, 1])
    (hz : (⟨0, ![]⟩ : Shape).BroadcastsInDim ⟨2, ![50000, 128]⟩ ![]) (c : Dev nD) (t : Fin cfg2.N) :
    (dat2 V c).flushed 2 t
      = ((cfg2.win 2).blk t).view.read (Elt Ideal) (biasClamp hb hz (V c main_v8) (V c main_v1)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S1x128) origin2]
  obtain ⟨e0, e1, e2, e3, e4, e5⟩ := blocks2 t
  funext j
  obtain ⟨p, q, rfl⟩ : ∃ (p : Fin 5000) (q : Fin 128), j = ix2 p q := ⟨j 0, j 1, eq_ix2 j⟩
  have hrow := row_in_range2 t p
  have eo : ((cfg2.win 2).blk t).view.emb (ix2 p q) = ix2 (⟨t.val * 5000 + p.val, hrow⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  show k2_pay1 (F := Ideal) (iblk2 V c 1 t) (iblk2 V c 0 t) (ix2 p q)
    = biasClamp hb hz (V c main_v8) (V c main_v1) (((cfg2.win 2).blk t).view.emb (ix2 p q))
  refine (blockBias2 (iblk2 V c 1 t) (iblk2 V c 0 t) p q).trans ?_
  refine Eq.trans ?_ (congrArg (biasClamp hb hz (V c main_v8) (V c main_v1)) eo).symm
  refine Eq.trans ?_ (biasClamp_apply hb hz (V c main_v8) (V c main_v1) ⟨t.val * 5000 + p.val, hrow⟩ q).symm
  have ex : iblk2 V c 0 t (ix2 p q) = V c main_v8 (ix2 (⟨t.val * 5000 + p.val, hrow⟩ : Fin 50000) q) := by
    show V c main_v8 (((cfg2.win 0).blk t).view.emb (ix2 p q)) = _
    refine congrArg (V c main_v8) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  have eb : iblk2 V c 1 t (ix2 (0 : Fin 1) q) = V c main_v1 (ix2 (0 : Fin 1) q) := by
    show V c main_v1 (((cfg2.win 1).blk t).view.emb (ix2 (0 : Fin 1) q)) = _
    refine congrArg (V c main_v1) (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  rw [ex, eb]

/-- An index of the result array is in point `t`'s block iff each coordinate is in the block's range on its axis. -/
theorem rows_of_block2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v9).slice (win2_2.rect t)).set ↔ _
  rw [View.set_slice_whole, Rect.mem_set_unit]
  exact Iff.rfl

/-- The ten row blocks tile the 50000 rows: row `r` is in block `r / 5000`. -/
theorem covered2 (i : S50000x128.Idx) :
    ∃ t : Fin cfg2.N, (cfg2.win 2).flush t = true ∧ i ∈ ((cfg2.win 2).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5⟩ := blocks2 t
  refine ⟨t, flush2_2 t, ?_⟩
  rw [rows_of_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE ARRAY the third launch leaves: the aggregate it found, biased and clamped at zero. -/
theorem hidden1_array (hb : (⟨2, ![1, 128]⟩ : Shape).BroadcastsInDim ⟨2, ![50000, 128]⟩ ![0, 1])
    (hz : (⟨0, ![]⟩ : Shape).BroadcastsInDim ⟨2, ![50000, 128]⟩ ![]) (c : Dev nD) :
    (dat2 V c).arrAt 2 cfg2.N = biasClamp hb hz (V c main_v8) (V c main_v1) :=
  (dat2 V c).arrAt_eq_of_cover 2 (biasClamp hb hz (V c main_v8) (V c main_v1)) (fun t _ => written2 V hb hz c t) covered2

end Cert.KernelIdeal.Layers

end
-- ==== Proof.Support2.lean ====
/-
  The second layer's support matrix.

  The fourth launch multiplies the hidden features `h` [50000, 128] by `W2` [128, 128] in ten row blocks of 5000 rows:
  at grid point `t` it reads rows 5000·t … 5000·t + 4999 of `h` and the whole of `W2`, and writes back the same rows of
  the result. A cast to the same shape and a change of float format are both the identity on the extended reals, so
  element (r, q) of block `t` is ∑ k, h (5000·t + r, k) · W2 (k, q): element (5000·t + r, q) of the whole product. The
  ten blocks tile the 50000 rows, so the array the launch leaves is the whole `dot_general` of the two arrays it found.
-/
import proofs.«411469_j5188320493795_1_alg».proof.Proof.Gen.KernelIdeal.Frame
import proofs.«411469_j5188320493795_1_alg».proof.Proof.LibPlainDot
import Idealize.ShloMosaic.Lib.Pipeline.Value
import Idealize.ShloMosaic.Lib.ValueIdx
import Idealize.ShloMosaic.PureOps.Ideal.Laws
import proofs.«411469_j5188320493795_1_alg».proof.Proof.Rowwise
set_option maxRecDepth 16384

noncomputable section

open scoped BigOperators

namespace Cert.KernelIdeal.Layers

open Cert.KernelIdeal Cert.KernelIdeal.Gen Cert.Lib
open Idealize.ShloMosaic Idealize.ShloMosaic.TcCoe Idealize.ShloMosaic.ValueIdx Idealize.SL.Sem
open Idealize.ShloMosaic.Pipeline (Dat)

-- the buffer contents a launch finds when it is entered
variable (V : (c : Dev nD) → (b : Ref sig .tc) → Buf (Elt Ideal) ((c : Thread nD τ).loc b))

/-- The dimension numbers of the block product are those of a plain product. -/
theorem plain_block3 : PlainDot dot_S5000x128_S128x128_S5000x128_1_0_0_1_n_n := ⟨rfl, rfl, rfl, rfl, rfl, rfl⟩

/-- One block's product at an element: the sum over the 128 contracted coordinates. -/
theorem blockProduct3 (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  simp only [shapeCast_self]
  exact plain_block3.matmul_zero_apply none (φ₁ := .bf16) (φ₂ := .bf16) x0 x1 p q

/-- The whole product of the arrays the launch finds, for any record of a plain [50000, 128] by [128, 128] product. -/
abbrev support2 (d : DotDims ⟨2, ![50000, 128]⟩ ⟨2, ![128, 128]⟩ ⟨2, ![50000, 128]⟩)
    (a : (⟨2, ![50000, 128]⟩ : Shape).Idx → EReal) (w : (⟨2, ![128, 128]⟩ : Shape).Idx → EReal) :
    (⟨2, ![50000, 128]⟩ : Shape).Idx → EReal :=
  Host.dotGeneral (F := Ideal) (φ₁ := .f32) (φ₂ := .f32) d none a w

/-- The printed index maps over the ten grid points: block `t` of `h` and of the result is row block `t`; `W2` is one
    block. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `r` of block `t` is row 5000·t + r of the array. -/
theorem row_in_range3 (t : Fin cfg3.N) (p : Fin 5000) : t.val * 5000 + p.val < 50000 := by
  have ht : t.val < 10 := lt_of_lt_of_eq t.isLt N_3
  have hp := p.isLt
  omega

/-- WHAT POINT `t` WRITES BACK is block `t` of the whole product of the two arrays the launch found. -/
theorem written3 (d : DotDims ⟨2, ![50000, 128]⟩ ⟨2, ![128, 128]⟩ ⟨2, ![50000, 128]⟩) (hd : PlainDot d) (c : Dev nD)
    (t : Fin cfg3.N) :
    (dat3 V c).flushed 2 t
      = ((cfg3.win 2).blk t).view.read (Elt Ideal) (support2 d (V c main_v9) (V c main_arg6)) := by
  show (cfg3.win 2).cut (grid3.coords t) ((dat3 V c).after 2 t) = _
  rw [after3_2]
  unfold out3_2
  rw [View.canon_unit_zero origin2]
  simp only [View.ld_unit_zero (S := S5000x128) origin2, View.ld_unit_zero (S := S128x128) origin2]
  obtain ⟨e0, e1, e2, e3, e4, e5⟩ := blocks3 t
  funext j
  obtain ⟨p, q, rfl⟩ : ∃ (p : Fin 5000) (q : Fin 128), j = ix2 p q := ⟨j 0, j 1, eq_ix2 j⟩
  have hrow := row_in_range3 t p
  -- the block's element (p, q) sits at (5000·t + p, q) of the array
  have eo : ((cfg3.win 2).blk t).view.emb (ix2 p q) = ix2 (⟨t.val * 5000 + p.val, hrow⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  show k3_pay1 (F := Ideal) (iblk3 V c 0 t) (iblk3 V c 1 t) (ix2 p q)
    = support2 d (V c main_v9) (V c main_arg6) (((cfg3.win 2).blk t).view.emb (ix2 p q))
  refine (blockProduct3 (iblk3 V c 0 t) (iblk3 V c 1 t) p q).trans ?_
  refine Eq.trans ?_ (congrArg (support2 d (V c main_v9) (V c main_arg6)) eo).symm
  refine Eq.trans ?_ (hd.dotGeneral_apply none _ (V c main_v9) (V c main_arg6) ⟨t.val * 5000 + p.val, hrow⟩ q).symm
  refine Finset.sum_congr rfl fun k _ => ?_
  -- the two input blocks read where the output's rectangle says
  have ea : iblk3 V c 0 t (ix2 p k) = V c main_v9 (ix2 (⟨t.val * 5000 + p.val, hrow⟩ : Fin 50000) k) := by
    show V c main_v9 (((cfg3.win 0).blk t).view.emb (ix2 p k)) = _
    refine congrArg (V c main_v9) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  have eb : iblk3 V c 1 t (ix2 k q) = V c main_arg6 (ix2 k q) := by
    show V c main_arg6 (((cfg3.win 1).blk t).view.emb (ix2 k q)) = _
    refine congrArg (V c main_arg6) (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  rw [ea, eb]

/-- An index of the result array is in point `t`'s block iff each coordinate is in the block's range on its axis. -/
theorem rows_of_block3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v10).slice (win3_2.rect t)).set ↔ _
  rw [View.set_slice_whole, Rect.mem_set_unit]
  exact Iff.rfl

/-- The ten row blocks tile the 50000 rows: row `r` is in block `r / 5000`. -/
theorem covered3 (i : S50000x128.Idx) :
    ∃ t : Fin cfg3.N, (cfg3.win 2).flush t = true ∧ i ∈ ((cfg3.win 2).blk t).view.set := by
  have hi0 : (i 0).val < 50000 := idx2_lt0 i
  have hi1 : (i 1).val < 128 := idx2_lt1 i
  have hN : cfg3.N = 10 := N_3
  obtain ⟨t, ht⟩ : ∃ t : Fin cfg3.N, t.val = (i 0).val / 5000 := ⟨⟨(i 0).val / 5000, by rw [hN]; omega⟩, rfl⟩
  obtain ⟨e0, e1, e2, e3, e4, e5⟩ := blocks3 t
  refine ⟨t, flush3_2 t, ?_⟩
  rw [rows_of_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE ARRAY the fourth launch leaves: the whole product of the two arrays it found. -/
theorem support2_array (d : DotDims ⟨2, ![50000, 128]⟩ ⟨2, ![128, 128]⟩ ⟨2, ![50000, 128]⟩) (hd : PlainDot d) (c : Dev nD) :
    (dat3 V c).arrAt 2 cfg3.N = support2 d (V c main_v9) (V c main_arg6) :=
  (dat3 V c).arrAt_eq_of_cover 2 (support2 d (V c main_v9) (V c main_arg6)) (fun t _ => written3 V d hd c t) covered3

end Cert.KernelIdeal.Layers

end
-- ==== Proof.Messages2.lean ====
/-
  The second layer's messages.

  The fifth launch scales row e of the gathered rows [800000, 128] by the e-th edge weight, held as a column
  [800000, 1], in a hundred row blocks of 8000 rows: at grid point `t` it reads rows 8000·t … 8000·t + 7999 of both
  and writes back the same rows of the product. Element (r, q) of block `t` is g (8000·t + r, q) · w (8000·t + r, 0),
  which is element (8000·t + r, q) of the whole elementwise product of the rows with the column broadcast along them.
  The hundred blocks tile the 800000 rows.
-/
import proofs.«411469_j5188320493795_1_alg».proof.Proof.Gen.KernelIdeal.Frame
import proofs.«411469_j5188320493795_1_alg».proof.Proof.LibPlainDot
import proofs.«411469_j5188320493795_1_alg».proof.Proof.Rowwise
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layers

open Cert.KernelIdeal Cert.KernelIdeal.Gen Cert.Lib
open Idealize.ShloMosaic Idealize.ShloMosaic.TcCoe Idealize.ShloMosaic.ValueIdx Idealize.SL.Sem
open Idealize.ShloMosaic.Pipeline (Dat)

-- the buffer contents a launch finds when it is entered
variable (V : (c : Dev nD) → (b : Ref sig .tc) → Buf (Elt Ideal) ((c : Thread nD τ).loc b))

/-- One block's product at an element: the row's entry times the row's weight. -/
theorem blockScale4 (w : Vec Ideal S8000x1 .f32) (g : Vec Ideal S8000x128 .f32) (p : Fin 8000) (q : Fin 128) :
    k4_pay1 (F := Ideal) w g (ix2 p q) = g (ix2 p q) * w (ix2 p (0 : Fin 1)) := by
  unfold k4_pay1
  simp only [shapeCast_self]
  show g (ix2 p q) * broadcastTo S8000x128 w broadcasts_S8000x1_S8000x128 (ix2 p q) = _
  rw [broadcastTo_apply w broadcasts_S8000x1_S8000x128 (ix2 p q) (ix2 p (0 : Fin 1)) (fun a => match a with
    | ⟨0, _⟩ => by show p.val = if (8000 : Nat) = 1 then 0 else p.val; rw [if_neg (by decide)]
    | ⟨1, _⟩ => by show 0 = if (1 : Nat) = 1 then 0 else q.val; rw [if_pos rfl])]

/-- The printed index maps over the hundred grid points: block `t` of each window is row block `t`. -/
theorem blocks4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row `r` of block `t` is row 8000·t + r of the array. -/
theorem row_in_range4 (t : Fin cfg4.N) (p : Fin 8000) : t.val * 8000 + p.val < 800000 := by
  have ht : t.val < 100 := lt_of_lt_of_eq t.isLt N_4
  have hp := p.isLt
  omega

/-- WHAT POINT `t` WRITES BACK is block `t` of the whole product of the two arrays the launch found. -/
theorem written4 (h : (⟨2, ![800000, 1]⟩ : Shape).BroadcastsInDim ⟨2, ![800000, 128]⟩ ![0, 1]) (c : Dev nD) (t : Fin cfg4.N) :
    (dat4 V c).flushed 2 t
      = ((cfg4.win 2).blk t).view.read (Elt Ideal) (scaleRows h (V c main_v11) (V c main_v0)) := by
  show (cfg4.win 2).cut (grid4.coords t) ((dat4 V c).after 2 t) = _
  rw [after4_2]
  unfold out4_2
  rw [View.canon_unit_zero origin2]
  simp only [View.ld_unit_zero (S := S8000x128) origin2, View.ld_unit_zero (S := S8000x1) origin2]
  obtain ⟨e0, e1, e2, e3, e4, e5⟩ := blocks4 t
  funext j
  obtain ⟨p, q, rfl⟩ : ∃ (p : Fin 8000) (q : Fin 128), j = ix2 p q := ⟨j 0, j 1, eq_ix2 j⟩
  have hrow := row_in_range4 t p
  have eo : ((cfg4.win 2).blk t).view.emb (ix2 p q) = ix2 (⟨t.val * 8000 + p.val, hrow⟩ : Fin 800000) q := by
    funext a; apply Fin.ext
    match a with
    | ⟨0, _⟩ => show win4_2.index t (0 : Fin 2) * 8000 + 1 * p.val = t.val * 8000 + p.val; omega
    | ⟨1, _⟩ => show win4_2.index t (1 : Fin 2) * 128 + 1 * q.val = q.val; omega
  show k4_pay1 (F := Ideal) (iblk4 V c 1 t) (iblk4 V c 0 t) (ix2 p q)
    = scaleRows h (V c main_v11) (V c main_v0) (((cfg4.win 2).blk t).view.emb (ix2 p q))
  refine (blockScale4 (iblk4 V c 1 t) (iblk4 V c 0 t) p q).trans ?_
  refine Eq.trans ?_ (congrArg (scaleRows h (V c main_v11) (V c main_v0)) eo).symm
  refine Eq.trans ?_ (scaleRows_apply h (V c main_v11) (V c main_v0) ⟨t.val * 8000 + p.val, hrow⟩ q).symm
  have eg : iblk4 V c 0 t (ix2 p q) = V c main_v11 (ix2 (⟨t.val * 8000 + p.val, hrow⟩ : Fin 800000) q) := by
    show V c main_v11 (((cfg4.win 0).blk t).view.emb (ix2 p q)) = _
    refine congrArg (V c main_v11) (funext fun a => Fin.ext ?_)
    match a with
    | ⟨0, _⟩ => show win4_0.index t (0 : Fin 2) * 8000 + 1 * p.val = t.val * 8000 + p.val; omega
    | ⟨1, _⟩ => show win4_0.index t (1 : Fin 2) * 128 + 1 * q.val = q.val; omega
  have ew : iblk4 V c 1 t (ix2 p (0 : Fin 1)) = V c main_v0 (ix2 (⟨t.val * 8000 + p.val, hrow⟩ : Fin 800000) (0 : Fin 1)) := by
    show V c main_v0 (((cfg4.win 1).blk t).view.emb (ix2 p (0 : Fin 1))) = _
    refine congrArg (V c main_v0) (funext fun a => Fin.ext ?_)
    match a with
    | ⟨0, _⟩ => show win4_1.index t (0 : Fin 2) * 8000 + 1 * p.val = t.val * 8000 + p.val; omega
    | ⟨1, _⟩ => show win4_1.index t (1 : Fin 2) * 1 + 1 * 0 = 0; omega
  rw [eg, ew]

/-- An index of the result array is in point `t`'s block iff each coordinate is in the block's range on its axis. -/
theorem rows_of_block4 (t : Fin cfg4.N) (i : S800000x128.Idx) :
    i ∈ ((cfg4.win 2).blk t).view.set ↔ ∀ a : Fin 2, win4_2.index t a * S8000x128.size a ≤ (i a).val
      ∧ (i a).val < win4_2.index t a * S8000x128.size a + S8000x128.size a := by
  show i ∈ ((View.whole main_v12).slice (win4_2.rect t)).set ↔ _
  rw [View.set_slice_whole, Rect.mem_set_unit]
  exact Iff.rfl

/-- The hundred row blocks tile the 800000 rows: row `r` is in block `r / 8000`. -/
theorem covered4 (i : S800000x128.Idx) :
    ∃ t : Fin cfg4.N, (cfg4.win 2).flush t = true ∧ i ∈ ((cfg4.win 2).blk t).view.set := by
  have hi0 : (i 0).val < 800000 := idx2_lt0 i
  have hi1 : (i 1).val < 128 := idx2_lt1 i
  have hN : cfg4.N = 100 := N_4
  obtain ⟨t, ht⟩ : ∃ t : Fin cfg4.N, t.val = (i 0).val / 8000 := ⟨⟨(i 0).val / 8000, by rw [hN]; omega⟩, rfl⟩
  obtain ⟨e0, e1, e2, e3, e4, e5⟩ := blocks4 t
  refine ⟨t, flush4_2 t, ?_⟩
  rw [rows_of_block4]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 128 ≤ (i 1).val ∧ (i 1).val < win4_2.index t (1 : Fin 2) * 128 + 128; omega

/-- THE ARRAY the fifth launch leaves: the gathered rows it found, each scaled by its weight. -/
theorem messages2_array (h : (⟨2, ![800000, 1]⟩ : Shape).BroadcastsInDim ⟨2, ![800000, 128]⟩ ![0, 1]) (c : Dev nD) :
    (dat4 V c).arrAt 2 cfg4.N = scaleRows h (V c main_v11) (V c main_v0) :=
  (dat4 V c).arrAt_eq_of_cover 2 (scaleRows h (V c main_v11) (V c main_v0)) (fun t _ => written4 V h c t) covered4

end Cert.KernelIdeal.Layers

end
-- ==== Proof.Hidden2.lean ====
/-
  The second layer's hidden features: the result.

  The sixth launch adds the bias, held as a row [1, 128], to every row of the aggregated messages [50000, 128] and
  clamps at zero, in ten row blocks of 5000 rows: at grid point `t` it reads rows 5000·t … 5000·t + 4999 and the bias row
  and writes back the same rows. Element (r, q) of block `t` is max (agg (5000·t + r, q) + b (0, q)) 0, which is element
  (5000·t + r, q) of the whole array max (agg + b broadcast down the rows) 0. The ten blocks tile the 50000 rows.
-/
import proofs.«411469_j5188320493795_1_alg».proof.Proof.Gen.KernelIdeal.Frame
import proofs.«411469_j5188320493795_1_alg».proof.Proof.LibPlainDot
import proofs.«411469_j5188320493795_1_alg».proof.Proof.Rowwise
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layers

open Cert.KernelIdeal Cert.KernelIdeal.Gen Cert.Lib
open Idealize.ShloMosaic Idealize.ShloMosaic.TcCoe Idealize.ShloMosaic.ValueIdx Idealize.SL.Sem
open Idealize.ShloMosaic.Pipeline (Dat)

-- the buffer contents a launch finds when it is entered
variable (V : (c : Dev nD) → (b : Ref sig .tc) → Buf (Elt Ideal) ((c : Thread nD τ).loc b))

/-- One block's result at an element: the entry plus its column's bias, clamped at zero. -/
theorem blockBias5 (b : Vec Ideal S1x128 .f32) (x : Vec Ideal S5000x128 .f32) (p : Fin 5000) (q : Fin 128) :
    k5_pay1 (F := Ideal) b x (ix2 p q) = max (x (ix2 p q) + b (ix2 (0 : Fin 1) q)) (Ideal.ofBits .f32 0x00000000#32) := by
  unfold k5_pay1
  simp only [shapeCast_self]
  show max (x (ix2 p q) + broadcastTo S5000x128 b broadcasts_S1x128_S5000x128 (ix2 p q)) _ = _
  rw [broadcastTo_apply b broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rfl

/-- The printed index maps over the ten grid points: block `t` of the aggregate and of the result is row block `t`; the
    bias row is one block. -/
theorem blocks5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `r` of block `t` is row 5000·t + r of the array. -/
theorem row_in_range5 (t : Fin cfg5.N) (p : Fin 5000) : t.val * 5000 + p.val < 50000 := by
  have ht : t.val < 10 := lt_of_lt_of_eq t.isLt N_5
  have hp := p.isLt
  omega

/-- WHAT POINT `t` WRITES BACK is block `t` of the whole biased and clamped array. -/
theorem written5 (hb : (⟨2, ![1, 128]⟩ : Shape).BroadcastsInDim ⟨2, ![50000, 128]⟩ ![0, 1])
    (hz : (⟨0, ![]⟩ : Shape).BroadcastsInDim ⟨2, ![50000, 128]⟩ ![]) (c : Dev nD) (t : Fin cfg5.N) :
    (dat5 V c).flushed 2 t
      = ((cfg5.win 2).blk t).view.read (Elt Ideal) (biasClamp hb hz (V c main_v15) (V c main_v2)) := by
  show (cfg5.win 2).cut (grid5.coords t) ((dat5 V c).after 2 t) = _
  rw [after5_2]
  unfold out5_2
  rw [View.canon_unit_zero origin2]
  simp only [View.ld_unit_zero (S := S5000x128) origin2, View.ld_unit_zero (S := S1x128) origin2]
  obtain ⟨e0, e1, e2, e3, e4, e5⟩ := blocks5 t
  funext j
  obtain ⟨p, q, rfl⟩ : ∃ (p : Fin 5000) (q : Fin 128), j = ix2 p q := ⟨j 0, j 1, eq_ix2 j⟩
  have hrow := row_in_range5 t p
  have eo : ((cfg5.win 2).blk t).view.emb (ix2 p q) = ix2 (⟨t.val * 5000 + p.val, hrow⟩ : Fin 50000) q := by
    funext a; apply Fin.ext
    match a with
    | ⟨0, _⟩ => show win5_2.index t (0 : Fin 2) * 5000 + 1 * p.val = t.val * 5000 + p.val; omega
    | ⟨1, _⟩ => show win5_2.index t (1 : Fin 2) * 128 + 1 * q.val = q.val; omega
  show k5_pay1 (F := Ideal) (iblk5 V c 1 t) (iblk5 V c 0 t) (ix2 p q)
    = biasClamp hb hz (V c main_v15) (V c main_v2) (((cfg5.win 2).blk t).view.emb (ix2 p q))
  refine (blockBias5 (iblk5 V c 1 t) (iblk5 V c 0 t) p q).trans ?_
  refine Eq.trans ?_ (congrArg (biasClamp hb hz (V c main_v15) (V c main_v2)) eo).symm
  refine Eq.trans ?_ (biasClamp_apply hb hz (V c main_v15) (V c main_v2) ⟨t.val * 5000 + p.val, hrow⟩ q).symm
  have ex : iblk5 V c 0 t (ix2 p q) = V c main_v15 (ix2 (⟨t.val * 5000 + p.val, hrow⟩ : Fin 50000) q) := by
    show V c main_v15 (((cfg5.win 0).blk t).view.emb (ix2 p q)) = _
    refine congrArg (V c main_v15) (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * q.val = q.val; omega
  have eb : iblk5 V c 1 t (ix2 (0 : Fin 1) q) = V c main_v2 (ix2 (0 : Fin 1) q) := by
    show V c main_v2 (((cfg5.win 1).blk t).view.emb (ix2 (0 : Fin 1) q)) = _
    refine congrArg (V c main_v2) (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  rw [ex, eb]

/-- An index of the result array is in point `t`'s block iff each coordinate is in the block's range on its axis. -/
theorem rows_of_block5 (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v16).slice (win5_2.rect t)).set ↔ _
  rw [View.set_slice_whole, Rect.mem_set_unit]
  exact Iff.rfl

/-- The ten row blocks tile the 50000 rows: row `r` is in block `r / 5000`. -/
theorem covered5 (i : S50000x128.Idx) :
    ∃ t : Fin cfg5.N, (cfg5.win 2).flush t = true ∧ i ∈ ((cfg5.win 2).blk t).view.set := by
  have hi0 : (i 0).val < 50000 := idx2_lt0 i
  have hi1 : (i 1).val < 128 := idx2_lt1 i
  have hN : cfg5.N = 10 := N_5
  obtain ⟨t, ht⟩ : ∃ t : Fin cfg5.N, t.val = (i 0).val / 5000 := ⟨⟨(i 0).val / 5000, by rw [hN]; omega⟩, rfl⟩
  obtain ⟨e0, e1, e2, e3, e4, e5⟩ := blocks5 t
  refine ⟨t, flush5_2 t, ?_⟩
  rw [rows_of_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- THE ARRAY the sixth launch leaves: the aggregate it found, biased and clamped at zero. -/
theorem hidden2_array (hb : (⟨2, ![1, 128]⟩ : Shape).BroadcastsInDim ⟨2, ![50000, 128]⟩ ![0, 1])
    (hz : (⟨0, ![]⟩ : Shape).BroadcastsInDim ⟨2, ![50000, 128]⟩ ![]) (c : Dev nD) :
    (dat5 V c).arrAt 2 cfg5.N = biasClamp hb hz (V c main_v15) (V c main_v2) :=
  (dat5 V c).arrAt_eq_of_cover 2 (biasClamp hb hz (V c main_v15) (V c main_v2)) (fun t _ => written5 V hb hz c t) covered5

end Cert.KernelIdeal.Layers

end
-- ==== Proof.TakeRows.lean ====
/-
  Taking rows of a table at in-range indices.

  The programs gather row `src e` of a table [50000, 128] for each of 800000 edges. Both first add 50000 to a negative
  index. One of them then also tests 0 ≤ index ≤ 49999 and puts a not-a-number row where the test fails; the other
  gathers at the index clamped into the table. When every index is a row of the table, 0 ≤ src e < 50000 as signed
  words, nothing is wrapped, the test holds for every edge, and the guarded gather is the plain gather.
-/
import proofs.«411469_j5188320493795_1_alg».proof.Proof.Gen.KernelIdeal.Frame
import Idealize.ShloMosaic.Lib.Pipeline.Value
import Idealize.ShloMosaic.Lib.ReduceAll
import Idealize.ShloMosaic.Lib.StableHlo.Predicate
import Idealize.ShloMosaic.Lib.ValueIdx
import Idealize.ShloMosaic.PureOps.Ideal.Laws

set_option maxRecDepth 16384

noncomputable section

namespace Cert.KernelIdeal.Layers

open Cert.KernelIdeal Cert.KernelIdeal.Gen
open Idealize.ShloMosaic Idealize.ShloMosaic.TcCoe Idealize.ShloMosaic.ValueIdx

/-! ## One index -/

/-- An edge's source index is a row of the table: 0 ≤ x < 50000, compared as signed words. -/
def RowIndex (x : BitVec 32) : Prop := IntOp.cmpi .sge x 0#32 = 1#1 ∧ IntOp.cmpi .slt x 50000#32 = 1#1

/-- As an integer the index lies in [0, 50000). -/
theorem RowIndex.toInt {x : BitVec 32} (h : RowIndex x) : 0 ≤ x.toInt ∧ x.toInt < 50000 := by
  obtain ⟨h0, h1⟩ := h
  have h0' : (0#32).sle x = true := (StableHlo.Predicate.ofBool_eq_one_iff _).mp h0
  have h1' : x.slt 50000#32 = true := (StableHlo.Predicate.ofBool_eq_one_iff _).mp h1
  have z : (0#32 : BitVec 32).toInt = 0 := by decide
  have n : (50000#32 : BitVec 32).toInt = 50000 := by decide
  have a := of_decide_eq_true h0'
  have b := of_decide_eq_true h1'
  omega

/-- A row index is not negative, so it is not wrapped. -/
theorem RowIndex.not_wrapped {x : BitVec 32} (h : RowIndex x) :
    Scalar.select (IntOp.cmpi .slt x 0#32) (IntOp.addi x 50000#32) x = x := by
  have hx := h.toInt
  have z : (0#32 : BitVec 32).toInt = 0 := by decide
  have hc : x.slt 0#32 = false := decide_eq_false (by omega)
  show (if BitVec.ofBool (x.slt 0#32) = 1 then IntOp.addi x 50000#32 else x) = x
  rw [hc]
  exact if_neg (by decide)

/-- A row index is at most the last row. -/
theorem RowIndex.le_last {x : BitVec 32} (h : RowIndex x) : IntOp.cmpi .sle x 49999#32 = 1#1 := by
  have hx := h.toInt
  have n : (49999#32 : BitVec 32).toInt = 49999 := by decide
  exact (StableHlo.Predicate.ofBool_eq_one_iff _).mpr (decide_eq_true (by omega))

/-! ## A reduction by `and` of ones -/

/-- A `stablehlo.reduce` by `and`, from 1, of an array of ones is 1 everywhere. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a, show IntOp.andi 1#1 1#1 = 1#1 from by decide]
    exact ih

/-! ## The arrays -/

/-- The index with 50000 added where it is negative: what both programs gather at. -/
abbrev wrapIndex (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The wrapped indices as a column. -/
abbrev indexColumn (src : IVec S800000 32) : IVec S800000x1 32 :=
  broadcastInDim S800000x1 ![0] bcast_S800000_S800000x1_0 (wrapIndex src)

/-- The test 0 ≤ index ≤ 49999, per edge. -/
abbrev inTable (src : IVec S800000 32) : IVec S800000 1 :=
  Host.reduce IntOp.andi
    (andi (cmpi .sge (indexColumn src) (broadcastInDim S800000x1 ![] bcast_S_S800000x1 (constantI S_ 32 0#32)))
      (cmpi .sle (indexColumn src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The plain gather of the table's rows at the wrapped indices. -/
abbrev gatherRows (table : FVec Ideal S50000x128 .f32) (src : IVec S800000 32) : FVec Ideal S800000x128 .f32 :=
  Host.gather gather_S50000x128_S800000x1_S800000x128_1_0_n_n_0_1_1128 table (indexColumn src)

/-- The guarded gather: the gathered row where the test holds, a not-a-number row elsewhere. -/
abbrev takeRows (table : FVec Ideal S50000x128 .f32) (src : IVec S800000 32) : FVec Ideal S800000x128 .f32 :=
  select (broadcastInDim S800000x128 ![0] bcast_S800000_S800000x128_0 (inTable src)) (gatherRows table src)
    (broadcastInDim S800000x128 ![] bcast_S_S800000x128 (constant S_ .f32 0x7FC00000#32))

/-- The wrapped index column holds the index itself when it is a row index. -/
theorem indexColumn_apply (src : IVec S800000 32) (hsrc : ∀ e, RowIndex (src e)) (k : S800000x1.Idx) :
    indexColumn src k = src (ix1 (⟨(k 0).val, idx2_lt0 k⟩ : Fin 800000)) := by
  have hb := broadcastInDim_apply (![0] : Fin 1 → Fin 2) bcast_S800000_S800000x1_0 (wrapIndex src) k
    (ix1 (⟨(k 0).val, idx2_lt0 k⟩ : Fin 800000)) (fun a => by
      match a with
      | ⟨0, _⟩ => show (k 0).val = if (800000 : Nat) = 1 then 0 else (k 0).val; rw [if_neg (by decide)])
  exact hb.trans (hsrc _).not_wrapped

/-- When every index is a row index the test holds for every edge. -/
theorem inTable_ones (src : IVec S800000 32) (hsrc : ∀ e, RowIndex (src e)) (e : S800000.Idx) : inTable src e = 1#1 := by
  refine reduce_andi_ones _ _ _ _ e (fun k => ?_) (fun _ => rfl)
  have hk := indexColumn_apply src hsrc k
  show IntOp.andi (IntOp.cmpi .sge (indexColumn src k) _) (IntOp.cmpi .sle (indexColumn src k) _) = 1#1
  rw [hk]
  have hr := hsrc (ix1 (⟨(k 0).val, idx2_lt0 k⟩ : Fin 800000))
  exact IntOp.andi_eq_one.2 ⟨hr.1, hr.le_last⟩

/-- THE GUARDED GATHER IS THE PLAIN GATHER when every index is a row of the table. -/
theorem takeRows_eq (table : FVec Ideal S50000x128 .f32) (src : IVec S800000 32) (hsrc : ∀ e, RowIndex (src e)) :
    takeRows table src = gatherRows table src := by
  funext i
  have hm : broadcastInDim S800000x128 ![0] bcast_S800000_S800000x128_0 (inTable src) i = 1#1 := by
    rw [broadcastInDim_apply (![0] : Fin 1 → Fin 2) bcast_S800000_S800000x128_0 (inTable src) i
      (ix1 (⟨(i 0).val, idx2_lt0 i⟩ : Fin 800000)) (fun a => by
        match a with
        | ⟨0, _⟩ => show (i 0).val = if (800000 : Nat) = 1 then 0 else (i 0).val; rw [if_neg (by decide)])]
    exact inTable_ones src hsrc _
  exact (congrArg (fun b => Scalar.select b (gatherRows table src i)
    (broadcastInDim S800000x128 ![] bcast_S_S800000x128 (constant (F := Ideal) S_ .f32 0x7FC00000#32) i)) hm).trans (if_pos rfl)

end Cert.KernelIdeal.Layers

end
-- ==== Proof.Layer.lean ====
/-
  One graph-convolution layer as whole arrays on the extended reals.

  max (A · (feat · wmat) + bias) 0 with the weighted adjacency `A` given by its 800000 edges: the product of the
  features and the weights; its row `src e` for each edge e (50000 added to a negative index), scaled by the edge's
  weight; those rows summed into row `dst e` of a zero array; the bias row added to every row; the maximum with zero.
-/
import proofs.«411469_j5188320493795_1_alg».proof.Proof.Rowwise
import proofs.«411469_j5188320493795_1_alg».proof.Proof.TakeRows

set_option maxRecDepth 16384

noncomputable section

namespace Cert.KernelIdeal.Layers

open Cert.KernelIdeal Cert.KernelIdeal.Gen
open Idealize.ShloMosaic Idealize.ShloMosaic.TcCoe

/-! ## One layer, whole -/

/-- A column broadcasts along the rows of an array of as many rows. -/
theorem column_broadcasts : (⟨2, ![800000, 1]⟩ : Shape).BroadcastsInDim ⟨2, ![800000, 128]⟩ ![0, 1] := by decide
/-- A row broadcasts down the rows of an array of as many columns. -/
theorem row_broadcasts : (⟨2, ![1, 128]⟩ : Shape).BroadcastsInDim ⟨2, ![50000, 128]⟩ ![0, 1] := by decide
/-- A scalar broadcasts to any array. -/
theorem scalar_broadcasts : (⟨0, ![]⟩ : Shape).BroadcastsInDim ⟨2, ![50000, 128]⟩ ![] := by decide

/-- The edge weights as a column. -/
abbrev weightColumn (w : FVec Ideal S800000 .f32) : FVec Ideal S800000x1 .f32 :=
  broadcastInDim S800000x1 ![0] bcast_S800000_S800000x1_0 w

/-- A bias as a row. -/
abbrev biasRow (b : FVec Ideal S128 .f32) : FVec Ideal S1x128 .f32 :=
  broadcastInDim S1x128 ![1] bcast_S128_S1x128_1 b

/-- The messages summed per destination node: the host's scatter-add into the zero array. -/
abbrev aggregate (msgs : FVec Ideal S800000x128 .f32) (dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) msgs

/-- ONE LAYER: max (A · (feat · wmat) + bias) 0, the weighted adjacency `A` given by its edges. -/
abbrev layer {K : Nat} (d : DotDims ⟨2, ![50000, K]⟩ ⟨2, ![K, 128]⟩ ⟨2, ![50000, 128]⟩)
    (feat : (⟨2, ![50000, K]⟩ : Shape).Idx → EReal) (wmat : (⟨2, ![K, 128]⟩ : Shape).Idx → EReal) (bias : FVec Ideal S128 .f32)
    (src dst : IVec S800000 32) (w : FVec Ideal S800000 .f32) : FVec Ideal S50000x128 .f32 :=
  biasClamp row_broadcasts scalar_broadcasts
    (aggregate (scaleRows column_broadcasts
      (gatherRows (Host.dotGeneral (F := Ideal) (φ₁ := .f32) (φ₂ := .f32) d none feat wmat) src) (weightColumn w)) dst)
    (biasRow bias)

end Cert.KernelIdeal.Layers

end
-- ==== Proof.TakeStretch.lean ====
/-
  The guarded gather as the host runs it.

  The guarded gather is an outlined function of 23 host operations over typed references: constants, broadcasts, the
  wrap of negative indices, the two comparisons and their conjunction, the gather, and the final choice. Run from any
  buffer contents, its result buffer ends at the guarded-gather term of the table's and the indices' contents. An
  operation over a typed reference moves contents to the reference's own buffer type and back; moved there and back
  they are the contents, and for a literal reference each move is the identity, so the composed term is the plain one.
-/
import proofs.«411469_j5188320493795_1_alg».proof.Proof.TakeRows
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

/-- Contents moved to a typed reference's own buffer type and back are the contents. -/
theorem ofBuf_toBuf {sg : RefSig} {Val : EltTy → Type} {T : BufTy} (x : TRef sg T) (v : T.Contents Val) :
    x.ofBuf (x.toBuf v) = v := by
  obtain ⟨r, rfl, _, _⟩ := x
  rfl

/-! The moves at the literal references the two calls read and write. -/

theorem read_table1 (v : (main_v3 : Ref sig .tc).ty.Contents (Elt Ideal)) :
    (TRef.of (T := ⟨S50000x128, .f32⟩) main_v3).ofBuf v = v := cast_eq _ _
theorem read_table2 (v : (main_v10 : Ref sig .tc).ty.Contents (Elt Ideal)) :
    (TRef.of (T := ⟨S50000x128, .f32⟩) main_v10).ofBuf v = v := cast_eq _ _
theorem read_sources (v : (main_arg1 : Ref sig .tc).ty.Contents (Elt Ideal)) :
    (TRef.of (T := ⟨S800000, .i32⟩) main_arg1).ofBuf v = v := cast_eq _ _
theorem write_rows1 (v : (⟨S800000x128, .f32⟩ : BufTy).Contents (Elt Ideal)) :
    (TRef.of (T := ⟨S800000x128, .f32⟩) main_v4).toBuf v = v := cast_eq _ _
theorem write_rows2 (v : (⟨S800000x128, .f32⟩ : BufTy).Contents (Elt Ideal)) :
    (TRef.of (T := ⟨S800000x128, .f32⟩) main_v11).toBuf v = v := cast_eq _ _

set_option maxHeartbeats 2000000 in
/-- The first call: from any contents `W`, the rows buffer ends at the guarded gather of the table's contents at the
    indices' contents. -/
theorem take_stretch1 (W : Valuation τ sig (Elt Ideal)) :
    StableHlo.after hostOps1 W (Proc.devRef .tc main_v4)
      = takeRows (W (Proc.devRef .tc main_v3)) (W (Proc.devRef .tc main_arg1)) := by
  after_results_simp
  simp only [ofBuf_toBuf, read_table1, read_sources, write_rows1]

set_option maxHeartbeats 2000000 in
/-- The second call, on the second layer's table. -/
theorem take_stretch2 (W : Valuation τ sig (Elt Ideal)) :
    StableHlo.after hostOps4 W (Proc.devRef .tc main_v11)
      = takeRows (W (Proc.devRef .tc main_v10)) (W (Proc.devRef .tc main_arg1)) := by
  after_results_simp
  simp only [ofBuf_toBuf, read_table2, read_sources, write_rows2]

end Cert.KernelIdeal.Layers

end
-- ==== Proof.Network.lean ====
/-
  The value the six launches leave in the result buffer.

  One graph-convolution layer, as whole arrays on the extended reals: the features times the weights; the product's
  row `src e` for each edge e, scaled by the edge's weight; those rows summed into row `dst e`; plus the bias row,
  clamped at zero. The program's buffer contents are followed boundary by boundary. Three broadcasts come first (the
  edge weights as a column, the two biases as rows). Then, per layer: the product launch leaves the whole product of
  the arrays it found, the host gathers rows of it with a guard that, when every source index is a row of the table,
  changes nothing, the scaling launch leaves the rows scaled, the host sums them per destination, and the bias launch
  leaves the sum biased and clamped. A buffer that a stretch of host operations or a launch does not write keeps its
  contents across it, so each operand is found where it was last written. The result buffer ends at the second
  layer applied to the first.
-/
import proofs.«411469_j5188320493795_1_alg».proof.Proof.Gen.KernelIdeal.Frame
import proofs.«411469_j5188320493795_1_alg».proof.Proof.Support1
import proofs.«411469_j5188320493795_1_alg».proof.Proof.Messages1
import proofs.«411469_j5188320493795_1_alg».proof.Proof.Hidden1
import proofs.«411469_j5188320493795_1_alg».proof.Proof.Support2
import proofs.«411469_j5188320493795_1_alg».proof.Proof.Messages2
import proofs.«411469_j5188320493795_1_alg».proof.Proof.Hidden2
import proofs.«411469_j5188320493795_1_alg».proof.Proof.TakeRows
import proofs.«411469_j5188320493795_1_alg».proof.Proof.Layer
import proofs.«411469_j5188320493795_1_alg».proof.Proof.TakeStretch
import Idealize.ShloMosaic.Lib.StableHlo.Run

set_option maxRecDepth 16384

noncomputable section

namespace Cert.KernelIdeal.Layers

open Cert.KernelIdeal Cert.KernelIdeal.Gen Cert.Lib
open Idealize.ShloMosaic Idealize.ShloMosaic.TcCoe Idealize.ShloMosaic.ValueIdx Idealize.SL.Sem Idealize.ShloMosaic.StableHlo

/-! ## The buffers, boundary by boundary -/

variable (m : (ℓ : Loc nD τ sig) → Buf (Elt Ideal) ℓ) (ρ : Dev nD → PrngReg) (c : Dev nD)

/-- A stretch of host operations leaves a buffer none of them writes as it found it. -/
macro "untouched" : tactic => `(tactic| exact StableHlo.after_of_forall_not_mem _ _ (List.forall_iff_forall_mem.mp (by
  simp only [hostOps0, hostOps1, hostOps2, hostOps4, hostOps5, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide))))

/-! ### Before the first launch -/

theorem features_at1 : V1 m ρ c main_arg0 = m ((c : Thread nD τ).loc main_arg0) :=
  calc W1 m ρ c (Proc.devRef .tc main_arg0)
    _ = W0 m ρ c (Proc.devRef .tc main_arg0) := by untouched
    _ = m ((c : Thread nD τ).loc main_arg0) := rfl

theorem weights1_at1 : V1 m ρ c main_arg4 = m ((c : Thread nD τ).loc main_arg4) :=
  calc W1 m ρ c (Proc.devRef .tc main_arg4)
    _ = W0 m ρ c (Proc.devRef .tc main_arg4) := by untouched
    _ = m ((c : Thread nD τ).loc main_arg4) := rfl

theorem column_at1 : W1 m ρ c (Proc.devRef .tc main_v0) = weightColumn (m ((c : Thread nD τ).loc main_arg3)) := by
  show StableHlo.after hostOps0 (W0 m ρ c) (Proc.devRef .tc main_v0) = _
  after_results

theorem bias1_at1 : W1 m ρ c (Proc.devRef .tc main_v1) = biasRow (m ((c : Thread nD τ).loc main_arg5)) := by
  show StableHlo.after hostOps0 (W0 m ρ c) (Proc.devRef .tc main_v1) = _
  after_results

theorem bias2_at1 : W1 m ρ c (Proc.devRef .tc main_v2) = biasRow (m ((c : Thread nD τ).loc main_arg7)) := by
  show StableHlo.after hostOps0 (W0 m ρ c) (Proc.devRef .tc main_v2) = _
  after_results

/-! ### The first layer -/

section
variable (d1 : DotDims ⟨2, ![50000, 256]⟩ ⟨2, ![256, 128]⟩ ⟨2, ![50000, 128]⟩)
  (d2 : DotDims ⟨2, ![50000, 128]⟩ ⟨2, ![128, 128]⟩ ⟨2, ![50000, 128]⟩)

/-- After the first launch: the first product. -/
theorem support1_at2 (hd1 : PlainDot d1) : W2 m ρ c (Proc.devRef .tc main_v3)
    = support1 d1 (m ((c : Thread nD τ).loc main_arg0)) (m ((c : Thread nD τ).loc main_arg4)) :=
  (W2_arr m ρ c 2).trans ((support1_array (V1 m ρ) d1 hd1 c).trans
    (congrArg₂ (support1 d1) (features_at1 m ρ c) (weights1_at1 m ρ c)))

theorem sources_at2 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by untouched
    _ = m ((c : Thread nD τ).loc main_arg1) := rfl

/-- After the guarded gather: the product's rows at the source indices. -/
theorem gathered1_at3 (hd1 : PlainDot d1) (hsrc : ∀ e, RowIndex ((m ((c : Thread nD τ).loc main_arg1) : IVec S800000 32) e)) : W3 m ρ c (Proc.devRef .tc main_v4)
    = gatherRows (support1 d1 (m ((c : Thread nD τ).loc main_arg0)) (m ((c : Thread nD τ).loc main_arg4)))
        (m ((c : Thread nD τ).loc main_arg1)) := by
  have h : W3 m ρ c (Proc.devRef .tc main_v4)
      = takeRows (W2 m ρ c (Proc.devRef .tc main_v3)) (W2 m ρ c (Proc.devRef .tc main_arg1)) := take_stretch1 (W2 m ρ c)
  exact (h.trans (congrArg₂ takeRows (support1_at2 m ρ c d1 hd1) (sources_at2 m ρ c))).trans (takeRows_eq _ _ hsrc)

theorem column_at3 : W3 m ρ c (Proc.devRef .tc main_v0) = weightColumn (m ((c : Thread nD τ).loc main_arg3)) :=
  calc W3 m ρ c (Proc.devRef .tc main_v0)
    _ = W2 m ρ c (Proc.devRef .tc main_v0) := by untouched
    _ = W1 m ρ c (Proc.devRef .tc main_v0) := W2_of_ne m ρ c main_v0 (by decide)
    _ = weightColumn (m ((c : Thread nD τ).loc main_arg3)) := column_at1 m ρ c

/-- After the second launch: the gathered rows scaled by the edge weights. -/
theorem messages1_at4 (hd1 : PlainDot d1) (hsrc : ∀ e, RowIndex ((m ((c : Thread nD τ).loc main_arg1) : IVec S800000 32) e)) : W4 m ρ c (Proc.devRef .tc main_v5)
    = scaleRows column_broadcasts
        (gatherRows (support1 d1 (m ((c : Thread nD τ).loc main_arg0)) (m ((c : Thread nD τ).loc main_arg4)))
          (m ((c : Thread nD τ).loc main_arg1)))
        (weightColumn (m ((c : Thread nD τ).loc main_arg3))) :=
  (W4_arr m ρ c 2).trans ((messages1_array (V3 m ρ) column_broadcasts c).trans
    (congrArg₂ (scaleRows column_broadcasts) (gathered1_at3 m ρ c d1 hd1 hsrc) (column_at3 m ρ c)))

theorem dests_at4 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by untouched
    _ = W1 m ρ c (Proc.devRef .tc main_arg2) := W2_of_ne m ρ c main_arg2 (by decide)
    _ = W0 m ρ c (Proc.devRef .tc main_arg2) := by untouched
    _ = m ((c : Thread nD τ).loc main_arg2) := rfl

/-- After the scatter-add: the messages summed per destination. -/
theorem summed1_at5 (hd1 : PlainDot d1) (hsrc : ∀ e, RowIndex ((m ((c : Thread nD τ).loc main_arg1) : IVec S800000 32) e)) : W5 m ρ c (Proc.devRef .tc main_v8)
    = aggregate (scaleRows column_broadcasts
        (gatherRows (support1 d1 (m ((c : Thread nD τ).loc main_arg0)) (m ((c : Thread nD τ).loc main_arg4)))
          (m ((c : Thread nD τ).loc main_arg1)))
        (weightColumn (m ((c : Thread nD τ).loc main_arg3)))) (m ((c : Thread nD τ).loc main_arg2)) := by
  have h : W5 m ρ c (Proc.devRef .tc main_v8)
      = aggregate (W4 m ρ c (Proc.devRef .tc main_v5)) (W4 m ρ c (Proc.devRef .tc main_arg2)) := by
    show StableHlo.after hostOps2 (W4 m ρ c) (Proc.devRef .tc main_v8) = _
    after_results
  exact h.trans (congrArg₂ aggregate (messages1_at4 m ρ c d1 hd1 hsrc) (dests_at4 m ρ c))

theorem bias1_at5 : W5 m ρ c (Proc.devRef .tc main_v1) = biasRow (m ((c : Thread nD τ).loc main_arg5)) :=
  calc W5 m ρ c (Proc.devRef .tc main_v1)
    _ = W4 m ρ c (Proc.devRef .tc main_v1) := by untouched
    _ = W3 m ρ c (Proc.devRef .tc main_v1) := W4_of_ne m ρ c main_v1 (by decide)
    _ = W2 m ρ c (Proc.devRef .tc main_v1) := by untouched
    _ = W1 m ρ c (Proc.devRef .tc main_v1) := W2_of_ne m ρ c main_v1 (by decide)
    _ = biasRow (m ((c : Thread nD τ).loc main_arg5)) := bias1_at1 m ρ c

/-- After the third launch: the first layer's hidden features. -/
theorem hidden_at6 (hd1 : PlainDot d1) (hsrc : ∀ e, RowIndex ((m ((c : Thread nD τ).loc main_arg1) : IVec S800000 32) e)) : W6 m ρ c (Proc.devRef .tc main_v9)
    = layer d1 (m ((c : Thread nD τ).loc main_arg0)) (m ((c : Thread nD τ).loc main_arg4)) (m ((c : Thread nD τ).loc main_arg5))
        (m ((c : Thread nD τ).loc main_arg1)) (m ((c : Thread nD τ).loc main_arg2)) (m ((c : Thread nD τ).loc main_arg3)) :=
  (W6_arr m ρ c 2).trans ((hidden1_array (V5 m ρ) row_broadcasts scalar_broadcasts c).trans
    (congrArg₂ (biasClamp row_broadcasts scalar_broadcasts) (summed1_at5 m ρ c d1 hd1 hsrc) (bias1_at5 m ρ c)))

/-! ### The second layer -/

theorem weights2_at6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by untouched
    _ = W3 m ρ c (Proc.devRef .tc main_arg6) := W4_of_ne m ρ c main_arg6 (by decide)
    _ = W2 m ρ c (Proc.devRef .tc main_arg6) := by untouched
    _ = W1 m ρ c (Proc.devRef .tc main_arg6) := W2_of_ne m ρ c main_arg6 (by decide)
    _ = W0 m ρ c (Proc.devRef .tc main_arg6) := by untouched
    _ = m ((c : Thread nD τ).loc main_arg6) := rfl

/-- After the fourth launch: the second product. -/
theorem support2_at7 (hd1 : PlainDot d1) (hd2 : PlainDot d2) (hsrc : ∀ e, RowIndex ((m ((c : Thread nD τ).loc main_arg1) : IVec S800000 32) e)) : W7 m ρ c (Proc.devRef .tc main_v10)
    = support2 d2 (layer d1 (m ((c : Thread nD τ).loc main_arg0)) (m ((c : Thread nD τ).loc main_arg4)) (m ((c : Thread nD τ).loc main_arg5))
        (m ((c : Thread nD τ).loc main_arg1)) (m ((c : Thread nD τ).loc main_arg2)) (m ((c : Thread nD τ).loc main_arg3)))
        (m ((c : Thread nD τ).loc main_arg6)) :=
  (W7_arr m ρ c 2).trans ((support2_array (V6 m ρ) d2 hd2 c).trans
    (congrArg₂ (support2 d2) (hidden_at6 m ρ c d1 hd1 hsrc) (weights2_at6 m ρ c)))

theorem sources_at7 : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := by untouched
    _ = W3 m ρ c (Proc.devRef .tc main_arg1) := W4_of_ne m ρ c main_arg1 (by decide)
    _ = W2 m ρ c (Proc.devRef .tc main_arg1) := by untouched
    _ = m ((c : Thread nD τ).loc main_arg1) := sources_at2 m ρ c

/-- After the second guarded gather: the second product's rows at the source indices. -/
theorem gathered2_at8 (hd1 : PlainDot d1) (hd2 : PlainDot d2) (hsrc : ∀ e, RowIndex ((m ((c : Thread nD τ).loc main_arg1) : IVec S800000 32) e)) : W8 m ρ c (Proc.devRef .tc main_v11)
    = gatherRows (support2 d2 (layer d1 (m ((c : Thread nD τ).loc main_arg0)) (m ((c : Thread nD τ).loc main_arg4)) (m ((c : Thread nD τ).loc main_arg5))
        (m ((c : Thread nD τ).loc main_arg1)) (m ((c : Thread nD τ).loc main_arg2)) (m ((c : Thread nD τ).loc main_arg3)))
        (m ((c : Thread nD τ).loc main_arg6))) (m ((c : Thread nD τ).loc main_arg1)) := by
  have h : W8 m ρ c (Proc.devRef .tc main_v11)
      = takeRows (W7 m ρ c (Proc.devRef .tc main_v10)) (W7 m ρ c (Proc.devRef .tc main_arg1)) := take_stretch2 (W7 m ρ c)
  exact (h.trans (congrArg₂ takeRows (support2_at7 m ρ c d1 d2 hd1 hd2 hsrc) (sources_at7 m ρ c))).trans (takeRows_eq _ _ hsrc)

/-- The weight column crosses the first scaling launch as one of its inputs, left as found. -/
theorem column_at8 : W8 m ρ c (Proc.devRef .tc main_v0) = weightColumn (m ((c : Thread nD τ).loc main_arg3)) :=
  calc W8 m ρ c (Proc.devRef .tc main_v0)
    _ = W7 m ρ c (Proc.devRef .tc main_v0) := by untouched
    _ = W6 m ρ c (Proc.devRef .tc main_v0) := W7_of_ne m ρ c main_v0 (by decide)
    _ = W5 m ρ c (Proc.devRef .tc main_v0) := W6_of_ne m ρ c main_v0 (by decide)
    _ = W4 m ρ c (Proc.devRef .tc main_v0) := by untouched
    _ = W3 m ρ c (Proc.devRef .tc main_v0) := (W4_arr m ρ c 1).trans (((dat1 (V3 m ρ) c).arrAt_in 1 rfl _).trans (A_eq1 (V3 m ρ) c 1))
    _ = weightColumn (m ((c : Thread nD τ).loc main_arg3)) := column_at3 m ρ c

/-- After the fifth launch: the second layer's messages. -/
theorem messages2_at9 (hd1 : PlainDot d1) (hd2 : PlainDot d2) (hsrc : ∀ e, RowIndex ((m ((c : Thread nD τ).loc main_arg1) : IVec S800000 32) e)) : W9 m ρ c (Proc.devRef .tc main_v12)
    = scaleRows column_broadcasts
        (gatherRows (support2 d2 (layer d1 (m ((c : Thread nD τ).loc main_arg0)) (m ((c : Thread nD τ).loc main_arg4)) (m ((c : Thread nD τ).loc main_arg5))
          (m ((c : Thread nD τ).loc main_arg1)) (m ((c : Thread nD τ).loc main_arg2)) (m ((c : Thread nD τ).loc main_arg3)))
          (m ((c : Thread nD τ).loc main_arg6))) (m ((c : Thread nD τ).loc main_arg1)))
        (weightColumn (m ((c : Thread nD τ).loc main_arg3))) :=
  (W9_arr m ρ c 2).trans ((messages2_array (V8 m ρ) column_broadcasts c).trans
    (congrArg₂ (scaleRows column_broadcasts) (gathered2_at8 m ρ c d1 d2 hd1 hd2 hsrc) (column_at8 m ρ c)))

theorem dests_at9 : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := by untouched
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by untouched
    _ = m ((c : Thread nD τ).loc main_arg2) := dests_at4 m ρ c

/-- After the second scatter-add: the second layer's messages summed per destination. -/
theorem summed2_at10 (hd1 : PlainDot d1) (hd2 : PlainDot d2) (hsrc : ∀ e, RowIndex ((m ((c : Thread nD τ).loc main_arg1) : IVec S800000 32) e)) : W10 m ρ c (Proc.devRef .tc main_v15)
    = aggregate (scaleRows column_broadcasts
        (gatherRows (support2 d2 (layer d1 (m ((c : Thread nD τ).loc main_arg0)) (m ((c : Thread nD τ).loc main_arg4)) (m ((c : Thread nD τ).loc main_arg5))
          (m ((c : Thread nD τ).loc main_arg1)) (m ((c : Thread nD τ).loc main_arg2)) (m ((c : Thread nD τ).loc main_arg3)))
          (m ((c : Thread nD τ).loc main_arg6))) (m ((c : Thread nD τ).loc main_arg1)))
        (weightColumn (m ((c : Thread nD τ).loc main_arg3)))) (m ((c : Thread nD τ).loc main_arg2)) := by
  have h : W10 m ρ c (Proc.devRef .tc main_v15)
      = aggregate (W9 m ρ c (Proc.devRef .tc main_v12)) (W9 m ρ c (Proc.devRef .tc main_arg2)) := by
    show StableHlo.after hostOps5 (W9 m ρ c) (Proc.devRef .tc main_v15) = _
    after_results
  exact h.trans (congrArg₂ aggregate (messages2_at9 m ρ c d1 d2 hd1 hd2 hsrc) (dests_at9 m ρ c))

theorem bias2_at10 : W10 m ρ c (Proc.devRef .tc main_v2) = biasRow (m ((c : Thread nD τ).loc main_arg7)) :=
  calc W10 m ρ c (Proc.devRef .tc main_v2)
    _ = W9 m ρ c (Proc.devRef .tc main_v2) := by untouched
    _ = W8 m ρ c (Proc.devRef .tc main_v2) := W9_of_ne m ρ c main_v2 (by decide)
    _ = W7 m ρ c (Proc.devRef .tc main_v2) := by untouched
    _ = W6 m ρ c (Proc.devRef .tc main_v2) := W7_of_ne m ρ c main_v2 (by decide)
    _ = W5 m ρ c (Proc.devRef .tc main_v2) := W6_of_ne m ρ c main_v2 (by decide)
    _ = W4 m ρ c (Proc.devRef .tc main_v2) := by untouched
    _ = W3 m ρ c (Proc.devRef .tc main_v2) := W4_of_ne m ρ c main_v2 (by decide)
    _ = W2 m ρ c (Proc.devRef .tc main_v2) := by untouched
    _ = W1 m ρ c (Proc.devRef .tc main_v2) := W2_of_ne m ρ c main_v2 (by decide)
    _ = biasRow (m ((c : Thread nD τ).loc main_arg7)) := bias2_at1 m ρ c

/-- THE RESULT BUFFER after the sixth launch: the second layer applied to the first layer's hidden features. -/
theorem result_at11 (hd1 : PlainDot d1) (hd2 : PlainDot d2) (hsrc : ∀ e, RowIndex ((m ((c : Thread nD τ).loc main_arg1) : IVec S800000 32) e)) : W11 m ρ c (Proc.devRef .tc main_v16)
    = layer d2 (layer d1 (m ((c : Thread nD τ).loc main_arg0)) (m ((c : Thread nD τ).loc main_arg4)) (m ((c : Thread nD τ).loc main_arg5))
        (m ((c : Thread nD τ).loc main_arg1)) (m ((c : Thread nD τ).loc main_arg2)) (m ((c : Thread nD τ).loc main_arg3)))
        (m ((c : Thread nD τ).loc main_arg6)) (m ((c : Thread nD τ).loc main_arg7))
        (m ((c : Thread nD τ).loc main_arg1)) (m ((c : Thread nD τ).loc main_arg2)) (m ((c : Thread nD τ).loc main_arg3)) :=
  (W11_arr m ρ c 2).trans ((hidden2_array (V10 m ρ) row_broadcasts scalar_broadcasts c).trans
    (congrArg₂ (biasClamp row_broadcasts scalar_broadcasts) (summed2_at10 m ρ c d1 d2 hd1 hd2 hsrc) (bias2_at10 m ρ c)))

end

end Cert.KernelIdeal.Layers

end
-- ==== Proof.SourceRows.lean ====
/-
  The precondition says every source index is a row of the table.

  The stated precondition is a conjunction whose last conjunct is the `and` over all 800000 edges of
  (src e ≥ 0) ∧ (src e < 50000), compared as signed words. A conjunction of bits that is 1 has every conjunct 1, and an
  `and`-reduction that is 1 had a 1 at every element, so each src e is a row index.
-/
import proofs.«411469_j5188320493795_1_alg».proof.Defs
import proofs.«411469_j5188320493795_1_alg».proof.Proof.TakeRows
import Idealize.ShloMosaic.Lib.ReduceAll
import Idealize.ShloMosaic.Lib.ValueIdx

noncomputable section

namespace Cert.KernelIdeal.Layers

open Cert.KernelIdeal Cert.KernelIdeal.Gen
open Idealize.ShloMosaic Idealize.ShloMosaic.TcCoe Idealize.SL.Sem

/-- Under the precondition every entry of the source-index argument is a row index. -/
theorem rows_of_pre [hP : Cert.Pre_finite_inputs.Facts] (m : (ℓ : Loc nD τ sig) → Buf (Elt Ideal) ℓ)
    (hpre : Cert.Pre_KernelIdeal m) (c : Dev nD) (e : S800000.Idx) :
    RowIndex ((m ((c.tc : Thread nD τ).loc main_arg1) : IVec S800000 32) e) := by
  have h := congrFun (hpre c) ValueIdx.ix0
  dsimp only [Cert.Pre_finite_inputs.fn, Cert.Pre_finite_inputs.fn_part1, Cert.Pre_finite_inputs.fn_part2] at h
  have h2 := (IntOp.andi_eq_one.1 h).2
  haveI : Subsingleton Cert.Pre_finite_inputs.S_.Idx := ⟨fun a b => funext fun d => d.elim0⟩
  have h3 := Host.reduce_andi_all _ _ _ _ _ h2 e
  exact IntOp.andi_eq_one.1 h3

end Cert.KernelIdeal.Layers

end
-- ==== Proof.RefValue.lean ====
/-
  The reference's result is the same two layers.

  The reference's run ends with its result at one composed term of the arguments: per layer, the host's product, the
  gather of its rows at the source indices (50000 added to a negative one), the rows times the edge weights broadcast
  along them, the scatter-add into zeros at the destination indices, plus the bias broadcast down the rows, the
  maximum with zero. That is the layer the kernel's buffers were followed to, operation for operation, so the two
  terms are the same term.
-/
import proofs.«411469_j5188320493795_1_alg».proof.Proof.Gen.ReferenceIdeal.Run
import proofs.«411469_j5188320493795_1_alg».proof.Proof.Gen.ReferenceIdeal.Read
import proofs.«411469_j5188320493795_1_alg».proof.Proof.Layer
import proofs.«411469_j5188320493795_1_alg».proof.Proof.LibPlainDot

set_option maxRecDepth 16384

noncomputable section

namespace Cert.ReferenceIdeal.RefValue

open Cert.ReferenceIdeal Cert.ReferenceIdeal.Gen
open Idealize.ShloMosaic Idealize.ShloMosaic.TcCoe Cert.Lib

/-- The reference's first product is a plain product. -/
theorem plain_product1 : PlainDot dot_S50000x256_S256x128_S50000x128_1_0_0_1_n_n := ⟨rfl, rfl, rfl, rfl, rfl, rfl⟩
/-- The reference's second product is a plain product. -/
theorem plain_product2 : PlainDot dot_S50000x128_S128x128_S50000x128_1_0_0_1_n_n := ⟨rfl, rfl, rfl, rfl, rfl, rfl⟩

/-- The reference run's result term is the second layer applied to the first. -/
theorem result_eq (a0 : FVec Ideal S50000x256 .f32) (a1 a2 : IVec S800000 32) (a3 : FVec Ideal S800000 .f32)
    (a4 : FVec Ideal S256x128 .f32) (a5 : FVec Ideal S128 .f32) (a6 : FVec Ideal S128x128 .f32) (a7 : FVec Ideal S128 .f32) :
    (maximumf (addf (Host.scatterAdd scatter_S50000x128_S800000x1_S800000x128_1_0_0_1 (broadcastInDim S50000x128 ![] bcast_S_S50000x128 (constant S_ .f32 0x00000000#32)) (broadcastInDim S800000x1 ![0] bcast_S800000_S800000x1_0 a2) (mulf (Host.gather gather_S50000x128_S800000x1_S800000x128_1_0_n_n_0_1_1128 (Host.dotGeneral dot_S50000x128_S128x128_S50000x128_1_0_0_1_n_n none (maximumf (addf (Host.scatterAdd scatter_S50000x128_S800000x1_S800000x128_1_0_0_1 (broadcastInDim S50000x128 ![] bcast_S_S50000x128 (constant S_ .f32 0x00000000#32)) (broadcastInDim S800000x1 ![0] bcast_S800000_S800000x1_0 a2) (mulf (Host.gather gather_S50000x128_S800000x1_S800000x128_1_0_n_n_0_1_1128 (Host.dotGeneral dot_S50000x256_S256x128_S50000x128_1_0_0_1_n_n none a0 a4) (broadcastInDim S800000x1 ![0] bcast_S800000_S800000x1_0 (select (cmpi .slt a1 (broadcastInDim S800000 ![] bcast_S_S800000 (constantI S_ 32 0#32))) (addi a1 (broadcastInDim S800000 ![] bcast_S_S800000 (constantI S_ 32 50000#32))) a1))) (broadcastInDim S800000x128 ![0, 1] bcast_S800000x1_S800000x128_0_1 (broadcastInDim S800000x1 ![0] bcast_S800000_S800000x1_0 a3)))) (broadcastInDim S50000x128 ![0, 1] bcast_S1x128_S50000x128_0_1 (broadcastInDim S1x128 ![1] bcast_S128_S1x128_1 a5))) (broadcastInDim S50000x128 ![] bcast_S_S50000x128 (constant S_ .f32 0x00000000#32))) a6) (broadcastInDim S800000x1 ![0] bcast_S800000_S800000x1_0 (select (cmpi .slt a1 (broadcastInDim S800000 ![] bcast_S_S800000 (constantI S_ 32 0#32))) (addi a1 (broadcastInDim S800000 ![] bcast_S_S800000 (constantI S_ 32 50000#32))) a1))) (broadcastInDim S800000x128 ![0, 1] bcast_S800000x1_S800000x128_0_1 (broadcastInDim S800000x1 ![0] bcast_S800000_S800000x1_0 a3)))) (broadcastInDim S50000x128 ![0, 1] bcast_S1x128_S50000x128_0_1 (broadcastInDim S1x128 ![1] bcast_S128_S1x128_1 a7))) (broadcastInDim S50000x128 ![] bcast_S_S50000x128 (constant S_ .f32 0x00000000#32)) : FVec Ideal S50000x128 .f32)
    = Cert.KernelIdeal.Layers.layer dot_S50000x128_S128x128_S50000x128_1_0_0_1_n_n
        (Cert.KernelIdeal.Layers.layer dot_S50000x256_S256x128_S50000x128_1_0_0_1_n_n a0 a4 a5 a1 a2 a3) a6 a7 a1 a2 a3 :=
  rfl

end Cert.ReferenceIdeal.RefValue

end
-- ==== Proof.lean ====
/-
  A two-layer graph convolution: six tiled launches against plain array code, equal on the extended reals.

  Both programs compute relu (A · (relu (A · (x · W1) + b1)) · W2 + b2) for a weighted adjacency `A` given as 800000
  edges (source, destination, weight) over 50000 nodes. One of them computes each product, each scaling of the gathered
  rows by the edge weights, and each bias-and-clamp in a launch tiled along the rows, with the gathers and the
  scatter-adds between the launches on the host; the other is the whole-array formula.

  On the extended reals a change of float format is the identity and a product accumulated into zero is the plain sum,
  so a row block of a product, of a row-wise scaling or of a row-wise bias-and-clamp is the same rows of the whole-array
  operation; the row blocks tile the rows, so each launch leaves the whole-array operation of what it found. The host
  operations between the launches are the reference's own, with one difference: the tiled program's gather replaces a row
  whose index lies outside the table by not-a-numbers, where the reference clamps the index into the table. The stated
  precondition keeps every source index inside the table, 0 ≤ src e < 50000; there the guard never fires and the two
  gathers agree. Followed launch by launch, the result buffer holds the second layer of the first layer of the
  arguments, and the reference's run ends at the same term of its arguments.

  The word-level program and its idealization run without fault and leave their arguments as launched (the frames);
  the idealization rewrote no operation, so there is nothing to preserve.
-/
import proofs.«411469_j5188320493795_1_alg».proof.Defs
import proofs.«411469_j5188320493795_1_alg».proof.Proof.Gen.Kernel
import proofs.«411469_j5188320493795_1_alg».proof.Proof.Gen.Kernel.Skeleton
import proofs.«411469_j5188320493795_1_alg».proof.Proof.Gen.Kernel.Launch
import proofs.«411469_j5188320493795_1_alg».proof.Proof.Gen.Kernel.Points
import proofs.«411469_j5188320493795_1_alg».proof.Proof.Gen.Kernel.Frame
import proofs.«411469_j5188320493795_1_alg».proof.Proof.Gen.KernelIdeal
import proofs.«411469_j5188320493795_1_alg».proof.Proof.Gen.KernelIdeal.Skeleton
import proofs.«411469_j5188320493795_1_alg».proof.Proof.Gen.KernelIdeal.Launch
import proofs.«411469_j5188320493795_1_alg».proof.Proof.Gen.KernelIdeal.Points
import proofs.«411469_j5188320493795_1_alg».proof.Proof.Gen.KernelIdeal.Frame
import proofs.«411469_j5188320493795_1_alg».proof.Proof.Gen.ReferenceIdeal
import proofs.«411469_j5188320493795_1_alg».proof.Proof.Gen.ReferenceIdeal.Run
import proofs.«411469_j5188320493795_1_alg».proof.Proof.Gen.Pre_finite_inputs
import proofs.«411469_j5188320493795_1_alg».proof.Proof.RunNamed
import proofs.«411469_j5188320493795_1_alg».proof.Proof.Network
import proofs.«411469_j5188320493795_1_alg».proof.Proof.SourceRows
import proofs.«411469_j5188320493795_1_alg».proof.Proof.RefValue
import Idealize.ShloMosaic.Adequacy
import Idealize.ShloMosaic.Init

set_option maxRecDepth 16384

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the second layer applied to the first, of arguments that agree: the tiled program by following
    its buffers through the six launches, the source indices being rows of the table under the precondition; the
    reference because that is its run's term. -/
theorem algebraic : Cert.algebraic_KernelIdeal_ReferenceIdeal := by
  intro m ρ m' ρ' hpre hagree
  refine ⟨fun c => Cert.KernelIdeal.Layers.layer Cert.ReferenceIdeal.dot_S50000x128_S128x128_S50000x128_1_0_0_1_n_n
      (Cert.KernelIdeal.Layers.layer Cert.ReferenceIdeal.dot_S50000x256_S256x128_S50000x128_1_0_0_1_n_n
        (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Layers.result_at11 m ρ c _ _
          Cert.ReferenceIdeal.RefValue.plain_product1 Cert.ReferenceIdeal.RefValue.plain_product2
          (Cert.KernelIdeal.Layers.rows_of_pre m hpre c)), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
